-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x2048 : Shape := ⟨3, ![64, 256, 2048]⟩
abbrev S_ : Shape := ⟨0, ![]⟩

class Facts : Prop where
  bcast_S_S64x256x2048 : S_.BroadcastsInDim S64x256x2048 (![] : Fin 0 → Fin S64x256x2048.rank)
  reducesTo_S64x256x2048_S_d0_1_2 : S64x256x2048.ReducesTo [0, 1, 2] S_
  h_S_ : 0 < S_.numel

variable [Facts]

def fn {F : FTy → Type} [FloatOps F] (main_arg0 : FVec F S64x256x2048 .f32) : IVec S_ 1 :=
  let main_v0 : FVec F S64x256x2048 .f32 := Host.absf main_arg0
  let main_cst : FVec F S_ .f32 := constant S_ .f32 0x7F800000#32
  let main_v1 : FVec F S64x256x2048 .f32 := broadcastInDim S64x256x2048 ![] bcast_S_S64x256x2048 main_cst
  let main_v2 : IVec S64x256x2048 1 := cmpf .olt main_v0 main_v1
  let main_c : IVec S_ 1 := constantI S_ 1 1#1
  let main_v3 : IVec S_ 1 := (fun x v => Host.reduce IntOp.andi x v reducesTo_S64x256x2048_S_d0_1_2 h_S_) main_v2 main_c
  main_v3
-- ==== Kernel.lean ====
abbrev S64x256x2048 : Shape := ⟨3, ![64, 256, 2048]⟩
abbrev S64x256x256 : Shape := ⟨3, ![64, 256, 256]⟩
abbrev S1x256x2048 : Shape := ⟨3, ![1, 256, 2048]⟩
abbrev S1x256x256 : Shape := ⟨3, ![1, 256, 256]⟩
abbrev S256x2048 : Shape := ⟨2, ![256, 2048]⟩
abbrev S256 : Shape := ⟨1, ![256]⟩
abbrev S256x1 : Shape := ⟨2, ![256, 1]⟩
abbrev S2048x256 : Shape := ⟨2, ![2048, 256]⟩
abbrev S256x256 : Shape := ⟨2, ![256, 256]⟩

abbrev nBuf : Space → Nat
  | .hbm => 2
  | .vmem => 4
  | .smem => 0
  | _ => 0

abbrev bufTy : (tb : Table) → Fin (tcTables nBuf tb) → BufTy
  | .hbm, ⟨0, _⟩ => ⟨S64x256x2048, .f32⟩
  | .hbm, ⟨1, _⟩ => ⟨S64x256x256, .f32⟩
  | .local _ .vmem, ⟨0, _⟩ => ⟨S1x256x2048, .f32⟩
  | .local _ .vmem, ⟨1, _⟩ => ⟨S1x256x2048, .f32⟩
  | .local _ .vmem, ⟨2, _⟩ => ⟨S1x256x256, .f32⟩
  | .local _ .vmem, ⟨3, _⟩ => ⟨S1x256x256, .f32⟩
  | _, _ => ⟨S64x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S256x2048_S256 : S256x2048.Reduces [1] S256
  shapeCasts_S256_S256x1 : S256.ShapeCasts S256x1
  broadcasts_S256x1_S256x2048 : S256x1.Broadcasts S256x2048
  bitsLt_bf16_f32 : FTy.bits .bf16 < FTy.bits .f32
  transposes_S256x2048_p1_0_S2048x256 : S256x2048.Transposes [1, 0] S2048x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  dot_S256x2048_S2048x256_S256x256_1_0_0_1_n_n_wf : DotDims.WF S256x2048 S2048x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S64x256x2048.size a
  hwx0_0 : ∀ i : grid0.Coords, EltTy.bits .f32 = 32 ∨ (Rect.block (s := S64x256x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S64x256x256.size a
  hwx0_1 : ∀ i : grid0.Coords, EltTy.bits .f32 = 32 ∨ (Rect.block (s := S64x256x256) S1x256x256.size (cc0_transform_1 i) (hinb0_1 i)).WholeWords (EltTy.packing .f32)

variable [Facts₀]

def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x256x2048 : Shape := ⟨3, ![64, 256, 2048]⟩
abbrev S_ : Shape := ⟨0, ![]⟩
abbrev S64x256 : Shape := ⟨2, ![64, 256]⟩
abbrev S64x256x1 : Shape := ⟨3, ![64, 256, 1]⟩
abbrev S64x256x256 : Shape := ⟨3, ![64, 256, 256]⟩

abbrev nBuf : Space → Nat
  | .hbm => 13
  | .vmem => 0
  | .smem => 0
  | _ => 0

abbrev bufTy : (tb : Table) → Fin (tcTables nBuf tb) → BufTy
  | .hbm, ⟨0, _⟩ => ⟨S64x256x2048, .f32⟩
  | .hbm, ⟨1, _⟩ => ⟨S_, .f32⟩
  | .hbm, ⟨2, _⟩ => ⟨S64x256, .f32⟩
  | .hbm, ⟨3, _⟩ => ⟨S64x256x1, .f32⟩
  | .hbm, ⟨4, _⟩ => ⟨S_, .f32⟩
  | .hbm, ⟨5, _⟩ => ⟨S64x256x1, .f32⟩
  | .hbm, ⟨6, _⟩ => ⟨S64x256x1, .f32⟩
  | .hbm, ⟨7, _⟩ => ⟨S64x256x2048, .f32⟩
  | .hbm, ⟨8, _⟩ => ⟨S64x256x2048, .f32⟩
  | .hbm, ⟨9, _⟩ => ⟨S64x256x256, .f32⟩
  | .hbm, ⟨10, _⟩ => ⟨S_, .f32⟩
  | .hbm, ⟨11, _⟩ => ⟨S64x256x256, .f32⟩
  | .hbm, ⟨12, _⟩ => ⟨S64x256x256, .f32⟩
  | _, _ => ⟨S64x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  reducesTo_S64x256x2048_S64x256_d2 : S64x256x2048.ReducesTo [2] S64x256
  h_S_ : 0 < S_.numel
  bcast_S64x256_S64x256x1_0_1 : S64x256.BroadcastsInDim S64x256x1 (![0, 1] : Fin 2 → Fin S64x256x1.rank)
  bcast_S_S64x256x1 : S_.BroadcastsInDim S64x256x1 (![] : Fin 0 → Fin S64x256x1.rank)
  bcast_S64x256x1_S64x256x2048_0_1_2 : S64x256x1.BroadcastsInDim S64x256x2048 (![0, 1, 2] : Fin 3 → Fin S64x256x2048.rank)
  bcast_S_S64x256x256 : S_.BroadcastsInDim S64x256x256 (![] : Fin 0 → Fin S64x256x256.rank)
  dot_S64x256x2048_S64x256x2048_S64x256x256_2_2_1_1_0_0_wf : DotDims.WF S64x256x2048 S64x256x2048 S64x256x256 [2] [2] [1] [1] [0] [0]

variable [Facts₀]

def dot_S64x256x2048_S64x256x2048_S64x256x256_2_2_1_1_0_0 : DotDims S64x256x2048 S64x256x2048 S64x256x256 where
  lhsContracting := [2]
  rhsContracting := [2]
  lhsNonContracting := [1]
  rhsNonContracting := [1]
  lhsBatch := [0]
  rhsBatch := [0]
  wf := dot_S64x256x2048_S64x256x2048_S64x256x256_2_2_1_1_0_0_wf

class Facts : Prop extends Facts₀ where

variable [Facts]
-- ==== Proof.CovSpec.lean ====
/-
  The covariance of a batch of samples, on the extended reals.

  A sample b holds C variables, each observed T times: x(b, c, t). The mean of variable c is its row sum divided by
  the number of observations; the centred entry is x(b, c, t) minus that mean; the covariance of variables c and d is
  the sum over t of the product of their centred entries, divided by the number of observations again. Both programs
  compute exactly this expression, with the same divisor (the float word of 2048), so it is stated once here and
  each program is shown to compute it.
-/
import Idealize.ShloMosaic.PureOps.Ideal.Laws
import Idealize.ShloMosaic.Lib.ValueIdx

noncomputable section

namespace Cert.Cov

open Idealize.ShloMosaic Idealize.ShloMosaic.ValueIdx

/-- The number of observations, 2048, as the float word both programs divide by. -/
abbrev nObs : EReal := Ideal.ofBits .f32 0x45000000#32

variable {B C T : ℕ}

/-- Observation t of variable c of sample b, minus the variable's mean over its T observations. -/
def centred (x : (⟨3, ![B, C, T]⟩ : Shape).Idx → EReal) (b : Fin B) (c : Fin C) (t : Fin T) : EReal :=
  x (ix3 b c t) - Ideal.div (∑ s : Fin T, x (ix3 b c s)) nObs

/-- The covariance of variables c and d of sample b. -/
def covAt (x : (⟨3, ![B, C, T]⟩ : Shape).Idx → EReal) (b : Fin B) (c d : Fin C) : EReal :=
  Ideal.div (∑ t : Fin T, centred x b c t * centred x b d t) nObs

/-- A sample's covariance depends on that sample's observations only: two arrays that agree on sample b of the one
    and sample b' of the other have the same covariance there. -/
theorem covAt_congr {B' : ℕ} (x : (⟨3, ![B, C, T]⟩ : Shape).Idx → EReal) (x' : (⟨3, ![B', C, T]⟩ : Shape).Idx → EReal)
    (b : Fin B) (b' : Fin B') (h : ∀ (c : Fin C) (t : Fin T), x (ix3 b c t) = x' (ix3 b' c t)) (c d : Fin C) :
    covAt x b c d = covAt x' b' c d := by
  unfold covAt centred
  simp only [h]

/-- The whole result: the covariance matrix of every one of the 64 samples of 256 variables observed 2048 times. -/
def cov (x : (⟨3, ![64, 256, 2048]⟩ : Shape).Idx → EReal) : (⟨3, ![64, 256, 256]⟩ : Shape).Idx → EReal :=
  fun i => covAt x ⟨(i 0).val, (i 0).isLt⟩ ⟨(i 1).val, (i 1).isLt⟩ ⟨(i 2).val, (i 2).isLt⟩

end Cert.Cov

end
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.CovBody.lean ====
/-
  The kernel body computes one sample's covariance matrix. From the loaded [1, 256, 2048] block it takes each row's
  sum, divides by the number of observations, subtracts that mean from the row, narrows the float format (the
  identity on the extended reals), multiplies the centred matrix by its own transpose into a zero accumulator, and
  divides by the number of observations: at entry (p, q) that is the covariance of variables p and q of the block's
  one sample.
-/
import proofs.«171244_j80693845557391_1_alg».proof.Proof.Gen.KernelIdeal.Skeleton
import proofs.«171244_j80693845557391_1_alg».proof.Proof.CovSpec
import proofs.«171244_j80693845557391_1_alg».proof.Proof.LibPlainDot
import Idealize.ShloMosaic.Lib.ValueLayout
import Idealize.ShloMosaic.Lib.Pipeline.Value

noncomputable section

namespace Cert.Cov.Body

open Cert.KernelIdeal Cert.KernelIdeal.Gen
open Idealize.ShloMosaic Idealize.ShloMosaic.ValueIdx

/-- A column [256, 1] broadcast along the observations reads, at (p, k), the column's entry p. -/
theorem broadcast_col (v : S256x1.Idx → EReal) (h : S256x1.Broadcasts S256x2048) (p : Fin 256) (k : Fin 2048) :
    broadcastTo S256x2048 v h (ix2 p k) = v (ix2 p (0 : Fin 1)) := by
  refine broadcastTo_apply v h (ix2 p k) (ix2 p (0 : Fin 1)) fun ax => ?_
  match ax with
  | ⟨0, _⟩ => show p.val = if (256 : ℕ) = 1 then 0 else p.val; rw [if_neg (by decide)]
  | ⟨1, _⟩ => show 0 = if (1 : ℕ) = 1 then 0 else k.val; rw [if_pos rfl]

/-- A vector [256] cast to a column [256, 1] reads, at (p, z), the vector's entry p. -/
theorem cast_col (v : S256.Idx → EReal) (h : S256.ShapeCasts S256x1) (p : Fin 256) (z : Fin 1) :
    shapeCast S256x1 v h (ix2 p z) = v (ix1 p) :=
  shapeCast_apply v h _ _ (by
    have hz : z.val = 0 := by omega
    rw [Shape.rowMajor_val_one, Shape.rowMajor_val_two]
    show p.val = p.val * 1 + z.val
    omega)

/-- The sum along the observations of a [256, 2048] matrix, at p, is the sum of row p. -/
theorem row_sum (v : S256x2048.Idx → EReal) (h : S256x2048.Reduces [1] S256) (hφ : FKind.Formats .f32)
    (hacc : (0x00000000#32 : BitVec 32) = FKind.add.neutral .f32 hφ) (p : Fin 256) :
    multiReduction (F := Ideal) (φ := .f32) .add [1] S256 v 0x00000000#32 h hφ hacc (ix1 p) = ∑ k : Fin 2048, v (ix2 p k) := by
  refine (Ideal.multiReduction_add_single v 0x00000000#32 h hφ hacc (ix1 p)).trans ?_
  refine Finset.sum_congr rfl fun k _ => congrArg v (funext fun a => Fin.ext ?_)
  match a with
  | ⟨0, _⟩ => rfl
  | ⟨1, _⟩ => rfl

/-- The row minus its mean, at (p, k), is the centred observation k of variable p of the block's one sample. -/
theorem centred_at (v0 : S1x256x2048.Idx → EReal) (hc1 : S1x256x2048.ShapeCasts S256x2048) (hr : S256x2048.Reduces [1] S256)
    (hφ : FKind.Formats .f32) (hacc : (0x00000000#32 : BitVec 32) = FKind.add.neutral .f32 hφ)
    (hc2 : S256.ShapeCasts S256x1) (hb : S256x1.Broadcasts S256x2048) (p : Fin 256) (k : Fin 2048) :
    subf (F := Ideal) (φ := .f32) (shapeCast S256x2048 v0 hc1)
        (broadcastTo S256x2048 (divf (F := Ideal) (φ := .f32)
          (shapeCast S256x1 (multiReduction (F := Ideal) (φ := .f32) .add [1] S256 (shapeCast S256x2048 v0 hc1) 0x00000000#32 hr hφ hacc) hc2)
          (broadcast S256x1 (Scalar.ofBits (F := Ideal) .f32 0x45000000#32))) hb) (ix2 p k)
      = centred v0 (0 : Fin 1) p k := by
  show shapeCast S256x2048 v0 hc1 (ix2 p k) - broadcastTo S256x2048 _ hb (ix2 p k) = _
  rw [broadcast_col, shapeCast_1ab_ab_apply]
  show _ - Ideal.div (shapeCast S256x1 _ hc2 (ix2 p (0 : Fin 1))) (Ideal.ofBits .f32 0x45000000#32) = _
  rw [cast_col, row_sum]
  simp only [shapeCast_1ab_ab_apply]
  rfl

/-- The body's stored value at (u, p, q), with every side condition a variable: the covariance of variables p and q. -/
theorem stored_at (v0 : S1x256x2048.Idx → EReal) (hc1 : S1x256x2048.ShapeCasts S256x2048) (hr : S256x2048.Reduces [1] S256)
    (hφ : FKind.Formats .f32) (hacc : (0x00000000#32 : BitVec 32) = FKind.add.neutral .f32 hφ)
    (hc2 : S256.ShapeCasts S256x1) (hb : S256x1.Broadcasts S256x2048) (hlt : FTy.bits .bf16 < FTy.bits .f32)
    (ht : S256x2048.Transposes [1, 0] S2048x256) (hc3 : S256x256.ShapeCasts S1x256x256)
    (d : DotDims S256x2048 S2048x256 S256x256) (hd : PlainDot.IsPlain d) (u : Fin 1) (p q : Fin 256) :
    shapeCast S1x256x256 (divf (F := Ideal) (φ := .f32)
        (matmul (F := Ideal) d none
          (truncf (F := Ideal) .bf16 (subf (F := Ideal) (φ := .f32) (shapeCast S256x2048 v0 hc1)
            (broadcastTo S256x2048 (divf (F := Ideal) (φ := .f32)
              (shapeCast S256x1 (multiReduction (F := Ideal) (φ := .f32) .add [1] S256 (shapeCast S256x2048 v0 hc1) 0x00000000#32 hr hφ hacc) hc2)
              (broadcast S256x1 (Scalar.ofBits (F := Ideal) .f32 0x45000000#32))) hb)) hlt)
          (transpose S2048x256 [1, 0] (truncf (F := Ideal) .bf16 (subf (F := Ideal) (φ := .f32) (shapeCast S256x2048 v0 hc1)
            (broadcastTo S256x2048 (divf (F := Ideal) (φ := .f32)
              (shapeCast S256x1 (multiReduction (F := Ideal) (φ := .f32) .add [1] S256 (shapeCast S256x2048 v0 hc1) 0x00000000#32 hr hφ hacc) hc2)
              (broadcast S256x1 (Scalar.ofBits (F := Ideal) .f32 0x45000000#32))) hb)) hlt) ht)
          (constant (F := Ideal) S256x256 .f32 0x00000000#32))
        (broadcast S256x256 (Scalar.ofBits (F := Ideal) .f32 0x45000000#32))) hc3 (ix3 u p q)
      = covAt v0 (0 : Fin 1) p q := by
  rw [shapeCast_ab_1ab_apply]
  show Ideal.div (FloatOps.matmul d none _ _ (constant (F := Ideal) S256x256 .f32 0x00000000#32) (ix2 p q)) (Ideal.ofBits .f32 0x45000000#32) = _
  rw [PlainDot.matmul_zero_apply hd]
  unfold covAt
  refine congrArg (fun s => Ideal.div s nObs) (Finset.sum_congr rfl fun k _ => ?_)
  rw [transpose_ix2_apply]
  exact congrArg₂ (· * ·) (centred_at v0 hc1 hr hφ hacc hc2 hb p k) (centred_at v0 hc1 hr hφ hacc hc2 hb q k)

/-- The kernel's payload at (u, p, q) is the covariance of variables p and q of the loaded block's one sample. -/
theorem payload_at (v0 : Vec Ideal S1x256x2048 .f32) (u : Fin 1) (p q : Fin 256) :
    k0_pay1 (F := Ideal) v0 (ix3 u p q) = covAt v0 (0 : Fin 1) p q := by
  unfold k0_pay1
  exact stored_at v0 _ _ _ _ _ _ _ _ _ _ ⟨rfl, rfl, rfl, rfl, rfl, rfl⟩ u p q

end Cert.Cov.Body

end
-- ==== Proof.CovBlocks.lean ====
/-
  From blocks to the array. Grid point t fetches sample t of the argument (the block [1, 256, 2048] at block index
  (t, 0, 0)) and writes back the block [1, 256, 256] at block index (t, 0, 0) of the result. What it writes is the
  covariance matrix of its one sample, which is sample t of the covariance of the whole argument; the 64 blocks cover
  the result array; so after the run the result array is the covariance of the argument array.
-/
import proofs.«171244_j80693845557391_1_alg».proof.Proof.Gen.KernelIdeal.Value
import proofs.«171244_j80693845557391_1_alg».proof.Proof.CovBody

noncomputable section

namespace Cert.Cov.Blocks

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0, 0] : Fin 3 → Nat) = fun _ => 0 := funext fun a => by fin_cases a <;> rfl

/-- Both windows' block index at grid point t is (t, 0, 0). -/
theorem block_indices : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- A block that holds sample b of the array X yields, at (u, p, q), the covariance of X at any index (b, p, q). -/
theorem stored_is_cov (X : S64x256x2048.Idx → EReal) (blk : S1x256x2048.Idx → EReal) (b : Fin 64)
    (hblk : ∀ (c : Fin 256) (s : Fin 2048), blk (ix3 (0 : Fin 1) c s) = X (ix3 b c s))
    (j : S1x256x256.Idx) (i : S64x256x256.Idx) (h0 : (i 0).val = b.val) (h1 : (i 1).val = (j 1).val) (h2 : (i 2).val = (j 2).val) :
    k0_pay1 (F := Ideal) blk j = cov X i := by
  obtain ⟨u, p, q, rfl⟩ : ∃ (u : Fin 1) (p q : Fin 256), j = ix3 u p q := ⟨j 0, j 1, j 2, eq_ix3 j⟩
  rw [Body.payload_at]
  unfold cov
  have e0 : (⟨(i 0).val, (i 0).isLt⟩ : Fin 64) = b := Fin.ext h0
  have e1 : (⟨(i 1).val, (i 1).isLt⟩ : Fin 256) = p := Fin.ext h1
  have e2 : (⟨(i 2).val, (i 2).isLt⟩ : Fin 256) = q := Fin.ext h2
  rw [e0, e1, e2]
  exact covAt_congr blk X 0 b hblk _ _

/-- What point t writes back is block t of the covariance of the argument array as the region finds it. -/
theorem flushed_eq (c : Dev nD) (t : Fin cfg0.N) :
    (dats m 0 c).flushed 1 t = ((cfg0.win 1).blk t).view.read (Elt Ideal) (cov (V m c main_arg0)) := by
  rw [Value.flushed1]
  unfold out0_1
  rw [View.canon_unit_zero zero_offsets]
  simp only [View.ld_unit_zero (S := S1x256x2048) zero_offsets]
  obtain ⟨a0, a1, a2, o0, o1, o2⟩ := block_indices t
  funext j
  show k0_pay1 (F := Ideal) (iblk m c 0 t) j = cov (V m c main_arg0) (((cfg0.win 1).blk t).view.emb j)
  refine stored_is_cov (V m c main_arg0) (iblk m c 0 t) ⟨t.val, t.isLt⟩ (fun c' s => ?_) j _ ?_ ?_ ?_
  · show V m c main_arg0 (((cfg0.win 0).blk t).view.emb (ix3 (0 : Fin 1) c' s)) = V m c main_arg0 (ix3 _ c' s)
    refine congrArg (V m c main_arg0) (funext fun a => Fin.ext ?_)
    match a with
    | ⟨0, _⟩ => show win0_0.index t (0 : Fin 3) * 1 + 1 * 0 = t.val; omega
    | ⟨1, _⟩ => show win0_0.index t (1 : Fin 3) * 256 + 1 * c'.val = c'.val; omega
    | ⟨2, _⟩ => show win0_0.index t (2 : Fin 3) * 2048 + 1 * s.val = s.val; omega
  · show win0_1.index t (0 : Fin 3) * 1 + 1 * (j 0).val = t.val
    have hj : (j 0).val < 1 := (j 0).isLt
    omega
  · show win0_1.index t (1 : Fin 3) * 256 + 1 * (j 1).val = (j 1).val; omega
  · show win0_1.index t (2 : Fin 3) * 256 + 1 * (j 2).val = (j 2).val; omega

/-- An index of the result array is in point t's block iff each coordinate is in the block's range on its axis. -/
theorem mem_blk (t : Fin cfg0.N) (i : S64x256x256.Idx) :
    i ∈ ((cfg0.win 1).blk t).view.set ↔ ∀ a : Fin 3, win0_1.index t a * S1x256x256.size a ≤ (i a).val ∧ (i a).val < win0_1.index t a * S1x256x256.size a + S1x256x256.size a := by
  show i ∈ ((View.whole main_v0).slice (win0_1.rect t)).set ↔ _
  rw [View.set_slice_whole, Rect.mem_set_unit]
  exact Iff.rfl

/-- Every index (b, p, q) of the result array is in the block of point b. -/
theorem cover (i : S64x256x256.Idx) : ∃ t : Fin cfg0.N, (cfg0.win 1).flush t = true ∧ i ∈ ((cfg0.win 1).blk t).view.set := by
  have hi0 : (i 0).val < 64 := (i 0).isLt
  have hi1 : (i 1).val < 256 := (i 1).isLt
  have hi2 : (i 2).val < 256 := (i 2).isLt
  suffices h : ∀ t : Fin cfg0.N, t.val = (i 0).val → i ∈ ((cfg0.win 1).blk t).view.set from
    ⟨⟨(i 0).val, hi0⟩, flush0_1 _, h _ rfl⟩
  intro t ht
  obtain ⟨-, -, -, o0, o1, o2⟩ := block_indices t
  rw [mem_blk]
  intro a
  match a with
  | ⟨0, _⟩ => show win0_1.index _ (0 : Fin 3) * 1 ≤ (i 0).val ∧ (i 0).val < win0_1.index _ (0 : Fin 3) * 1 + 1; omega
  | ⟨1, _⟩ => show win0_1.index _ (1 : Fin 3) * 256 ≤ (i 1).val ∧ (i 1).val < win0_1.index _ (1 : Fin 3) * 256 + 256; omega
  | ⟨2, _⟩ => show win0_1.index _ (2 : Fin 3) * 256 ≤ (i 2).val ∧ (i 2).val < win0_1.index _ (2 : Fin 3) * 256 + 256; omega

/-- The result array after the run is the covariance of the argument array. -/
theorem final (c : Dev nD) : (dats m 0 c).arrAt 1 cfg0.N = cov (m ((c : Thread nD τ).loc main_arg0)) :=
  (dats m 0 c).arrAt_eq_of_cover 1 (cov (V m c main_arg0)) (fun t _ => flushed_eq m c t) cover

/-- The kernel's run: the result array ends at the covariance of the argument array, the argument unchanged. -/
theorem run : θ_run defs (onTc (τ := τ) (main (F := Ideal))) ⟨m, fun _ => 0, ρ⟩ fun r => ∀ c : Dev nD,
      r.2.mem ((c : Thread nD τ).loc main_v0) = cov (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.Cov.Blocks

end
-- ==== Proof.CovReference.lean ====
/-
  The reference computes the covariance: its result array, read one operation at a time at an index (b, c, d), is
  the row sums of sample b divided by the number of observations, subtracted from the observations, the products of
  the centred rows c and d summed over the observations (the batched contraction over the last axis), and the
  division by the number of observations. The reduce starts from the zero word, which adds nothing.
-/
import proofs.«171244_j80693845557391_1_alg».proof.Proof.Gen.ReferenceIdeal.Read
import proofs.«171244_j80693845557391_1_alg».proof.Proof.CovSpec

noncomputable section

namespace Cert.Cov.Ref

open Cert.ReferenceIdeal Cert.ReferenceIdeal.Gen Cert.ReferenceIdeal.Read
open Idealize.ShloMosaic Idealize.ShloMosaic.ValueIdx

/-- The subtraction's result at (b, c, t) is the centred observation: the broadcasts read the mean of row (b, c). -/
theorem centred_eq (x : S64x256x2048.Idx → EReal) (b : Fin 64) (c : Fin 256) (t : Fin 2048) :
    val_main_v5 (F := Ideal) x (ix3 b c t) = centred x b c t := by
  have e : ∀ k : Fin 2048, idx_main_v0 (idx_main_v1 (idx_main_v4 (ix3 b c t))) k = ix3 b c k := fun k =>
    funext fun a => Fin.ext (by match a with | ⟨0, _⟩ => rfl | ⟨1, _⟩ => rfl | ⟨2, _⟩ => rfl)
  rw [val_main_v5_apply, val_main_v4_apply, val_main_v3_apply, val_main_v1_apply, val_main_v2_apply, val_main_v0_apply,
    val_main_cst_0_apply, val_main_cst_apply]
  simp only [Ideal.subf_def, Ideal.hostDivf_def, Ideal.ofBits_def, Ideal.ofBits_zero_f32, zero_add, e]
  rfl

/-- The reference's result is the covariance of its argument. -/
theorem result_eq (x : S64x256x2048.Idx → EReal) : val_main_v8 (F := Ideal) x = cov x := by
  funext i
  have el : ∀ k : Fin 2048, lidx_main_v6 i k = ix3 (⟨(i 0).val, (i 0).isLt⟩ : Fin 64) (⟨(i 1).val, (i 1).isLt⟩ : Fin 256) k := fun k =>
    funext fun a => Fin.ext (by match a with | ⟨0, _⟩ => rfl | ⟨1, _⟩ => rfl | ⟨2, _⟩ => rfl)
  have er : ∀ k : Fin 2048, ridx_main_v6 i k = ix3 (⟨(i 0).val, (i 0).isLt⟩ : Fin 64) (⟨(i 2).val, (i 2).isLt⟩ : Fin 256) k := fun k =>
    funext fun a => Fin.ext (by match a with | ⟨0, _⟩ => rfl | ⟨1, _⟩ => rfl | ⟨2, _⟩ => rfl)
  rw [val_main_v8_apply, val_main_v6_apply, val_main_v7_apply, val_main_cst_1_apply]
  simp only [Ideal.hostDivf_def, Ideal.ofBits_def, el, er, centred_eq]
  rfl

end Cert.Cov.Ref

end
-- ==== Proof.lean ====
/-
  Per-sample covariance, kernel against reference, on the extended reals.

  The argument X holds 64 samples of 256 variables observed 2048 times. Both programs subtract from every row its
  mean (the row sum divided by 2048), multiply the centred matrix of each sample by its own transpose (a sum over the
  2048 observations of products of centred entries), and divide by 2048. The kernel does this one sample per grid
  point, with the float format narrowed before the product, which changes nothing on the extended reals, and its
  matrix product accumulates into zeros; the reference does it for all samples at once with a batched contraction,
  its row sum starting from zero. Entry (b, c, d) of either result is therefore the same expression in the entries
  of sample b, term by term: no algebraic law is needed beyond 0 + s = s, and the inputs' finiteness is not used.

  The three frames are the generated runs. The kernel's value is read off its run block by block (each point writes
  the covariance of its sample, the blocks cover the result); the reference's value is read off its run one
  operation at a time.
-/
import proofs.«171244_j80693845557391_1_alg».proof.Defs
import proofs.«171244_j80693845557391_1_alg».proof.Proof.Gen.Kernel
import proofs.«171244_j80693845557391_1_alg».proof.Proof.Gen.Kernel.Skeleton
import proofs.«171244_j80693845557391_1_alg».proof.Proof.Gen.Kernel.Launch
import proofs.«171244_j80693845557391_1_alg».proof.Proof.Gen.Kernel.Points
import proofs.«171244_j80693845557391_1_alg».proof.Proof.Gen.Kernel.Frame
import proofs.«171244_j80693845557391_1_alg».proof.Proof.Gen.KernelIdeal
import proofs.«171244_j80693845557391_1_alg».proof.Proof.Gen.KernelIdeal.Skeleton
import proofs.«171244_j80693845557391_1_alg».proof.Proof.Gen.KernelIdeal.Launch
import proofs.«171244_j80693845557391_1_alg».proof.Proof.Gen.KernelIdeal.Points
import proofs.«171244_j80693845557391_1_alg».proof.Proof.Gen.KernelIdeal.Frame
import proofs.«171244_j80693845557391_1_alg».proof.Proof.Gen.ReferenceIdeal
import proofs.«171244_j80693845557391_1_alg».proof.Proof.Gen.Pre_finite_inputs
import proofs.«171244_j80693845557391_1_alg».proof.Proof.Gen.KernelIdeal.Value
import proofs.«171244_j80693845557391_1_alg».proof.Proof.Gen.ReferenceIdeal.Run
import proofs.«171244_j80693845557391_1_alg».proof.Proof.Gen.ReferenceIdeal.Read
import proofs.«171244_j80693845557391_1_alg».proof.Proof.CovBlocks
import proofs.«171244_j80693845557391_1_alg».proof.Proof.CovReference
import Idealize.ShloMosaic.Adequacy
import Idealize.ShloMosaic.Init

noncomputable section

namespace Cert.Proof

open Idealize.ShloMosaic Idealize.ShloMosaic.TcCoe Idealize.SL.Sem

/-- The word-level kernel runs and leaves its argument as it was. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, its result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the covariance of the argument: the kernel's result array block by block, the reference's
    one operation at a time, from arguments that agree. -/
theorem algebraic : Cert.algebraic_KernelIdeal_ReferenceIdeal := by
  intro m ρ m' ρ' _ hagree
  refine ⟨fun c => Cert.Cov.cov (m ((c.tc : Thread Cert.KernelIdeal.nD Cert.KernelIdeal.τ).loc Cert.KernelIdeal.main_arg0)),
    Cert.Cov.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.Cov.Ref.result_eq, hagree c]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
